-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x256x4096 : Shape := ⟨3, ![2, 256, 4096]⟩
abbrev S8192x4096 : Shape := ⟨2, ![8192, 4096]⟩
abbrev S8192x1 : Shape := ⟨2, ![8192, 1]⟩
abbrev S65536 : Shape := ⟨1, ![65536]⟩
abbrev S_ : Shape := ⟨0, ![]⟩

class Facts : Prop where
  bcast_S_S2x256x4096 : S_.BroadcastsInDim S2x256x4096 (![] : Fin 0 → Fin S2x256x4096.rank)
  reducesTo_S2x256x4096_S_d0_1_2 : S2x256x4096.ReducesTo [0, 1, 2] S_
  h_S_ : 0 < S_.numel
  bcast_S_S8192x1 : S_.BroadcastsInDim S8192x1 (![] : Fin 0 → Fin S8192x1.rank)
  reducesTo_S8192x1_S_d0_1 : S8192x1.ReducesTo [0, 1] S_
  bcast_S_S65536 : S_.BroadcastsInDim S65536 (![] : Fin 0 → Fin S65536.rank)
  reducesTo_S65536_S_d0 : S65536.ReducesTo [0] S_

variable [Facts]

def fn {F : FTy → Type} [FloatOps F] (main_arg0 : FVec F S2x256x4096 .f32) (main_arg1 : IVec S8192x4096 32) (main_arg2 : IVec S8192x4096 32) (main_arg3 : FVec F S8192x1 .f32) (main_arg4 : FVec F S65536 .f32) : IVec S_ 1 :=
  let main_v0 : FVec F S2x256x4096 .f32 := Host.absf main_arg0
  let main_cst : FVec F S_ .f32 := constant S_ .f32 0x7F800000#32
  let main_v1 : FVec F S2x256x4096 .f32 := broadcastInDim S2x256x4096 ![] bcast_S_S2x256x4096 main_cst
  let main_v2 : IVec S2x256x4096 1 := cmpf .olt main_v0 main_v1
  let main_c : IVec S_ 1 := constantI S_ 1 1#1
  let main_v3 : IVec S_ 1 := (fun x v => Host.reduce IntOp.andi x v reducesTo_S2x256x4096_S_d0_1_2 h_S_) main_v2 main_c
  let main_v4 : FVec F S8192x1 .f32 := Host.absf main_arg3
  let main_cst_0 : FVec F S_ .f32 := constant S_ .f32 0x7F800000#32
  let main_v5 : FVec F S8192x1 .f32 := broadcastInDim S8192x1 ![] bcast_S_S8192x1 main_cst_0
  let main_v6 : IVec S8192x1 1 := cmpf .olt main_v4 main_v5
  let main_c_1 : IVec S_ 1 := constantI S_ 1 1#1
  let main_v7 : IVec S_ 1 := (fun x v => Host.reduce IntOp.andi x v reducesTo_S8192x1_S_d0_1 h_S_) main_v6 main_c_1
  let main_v8 : IVec S_ 1 := andi main_v3 main_v7
  let main_v9 : FVec F S65536 .f32 := Host.absf main_arg4
  let main_cst_2 : FVec F S_ .f32 := constant S_ .f32 0x7F800000#32
  let main_v10 : FVec F S65536 .f32 := broadcastInDim S65536 ![] bcast_S_S65536 main_cst_2
  let main_v11 : IVec S65536 1 := cmpf .olt main_v9 main_v10
  let main_c_3 : IVec S_ 1 := constantI S_ 1 1#1
  let main_v12 : IVec S_ 1 := (fun x v => Host.reduce IntOp.andi x v reducesTo_S65536_S_d0 h_S_) main_v11 main_c_3
  let main_v13 : IVec S_ 1 := andi main_v8 main_v12
  main_v13
-- ==== Kernel.lean ====
abbrev S2x256x4096 : Shape := ⟨3, ![2, 256, 4096]⟩
abbrev S8192x4096 : Shape := ⟨2, ![8192, 4096]⟩
abbrev S8192x1 : Shape := ⟨2, ![8192, 1]⟩
abbrev S65536 : Shape := ⟨1, ![65536]⟩
abbrev S_ : Shape := ⟨0, ![]⟩
abbrev S8192x4096x1 : Shape := ⟨3, ![8192, 4096, 1]⟩
abbrev S512x4096 : Shape := ⟨2, ![512, 4096]⟩
abbrev S512x8192 : Shape := ⟨2, ![512, 8192]⟩
abbrev S512x2048 : Shape := ⟨2, ![512, 2048]⟩
abbrev S1024x2048 : Shape := ⟨2, ![1024, 2048]⟩
abbrev S512x1024 : Shape := ⟨2, ![512, 1024]⟩
abbrev S2x256x8192 : Shape := ⟨3, ![2, 256, 8192]⟩

abbrev nBuf : Space → Nat
  | .hbm => 25
  | .vmem => 7
  | .smem => 0
  | _ => 0

abbrev bufTy : (tb : Table) → Fin (tcTables nBuf tb) → BufTy
  | .hbm, ⟨0, _⟩ => ⟨S2x256x4096, .f32⟩
  | .hbm, ⟨1, _⟩ => ⟨S8192x4096, .i32⟩
  | .hbm, ⟨2, _⟩ => ⟨S8192x4096, .i32⟩
  | .hbm, ⟨3, _⟩ => ⟨S8192x1, .f32⟩
  | .hbm, ⟨4, _⟩ => ⟨S65536, .f32⟩
  | .hbm, ⟨5, _⟩ => ⟨S_, .i32⟩
  | .hbm, ⟨6, _⟩ => ⟨S8192x4096, .i32⟩
  | .hbm, ⟨7, _⟩ => ⟨S8192x4096, .i32⟩
  | .hbm, ⟨8, _⟩ => ⟨S8192x4096, .i32⟩
  | .hbm, ⟨9, _⟩ => ⟨S_, .i32⟩
  | .hbm, ⟨10, _⟩ => ⟨S8192x4096, .i32⟩
  | .hbm, ⟨11, _⟩ => ⟨S8192x4096, .i1⟩
  | .hbm, ⟨12, _⟩ => ⟨S_, .i32⟩
  | .hbm, ⟨13, _⟩ => ⟨S8192x4096, .i32⟩
  | .hbm, ⟨14, _⟩ => ⟨S8192x4096, .i32⟩
  | .hbm, ⟨15, _⟩ => ⟨S8192x4096, .i32⟩
  | .hbm, ⟨16, _⟩ => ⟨S8192x4096x1, .i32⟩
  | .hbm, ⟨17, _⟩ => ⟨S8192x4096, .f32⟩
  | .hbm, ⟨18, _⟩ => ⟨S8192x4096, .f32⟩
  | .hbm, ⟨19, _⟩ => ⟨S8192x4096, .f32⟩
  | .hbm, ⟨20, _⟩ => ⟨S512x4096, .f32⟩
  | .hbm, ⟨21, _⟩ => ⟨S512x4096, .bf16⟩
  | .hbm, ⟨22, _⟩ => ⟨S8192x4096, .bf16⟩
  | .hbm, ⟨23, _⟩ => ⟨S512x8192, .f32⟩
  | .hbm, ⟨24, _⟩ => ⟨S2x256x8192, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bcast_S_S8192x4096 : S_.BroadcastsInDim S8192x4096 (![] : Fin 0 → Fin S8192x4096.rank)
  bcast_S8192x4096_S8192x4096x1_0_1 : S8192x4096.BroadcastsInDim S8192x4096x1 (![0, 1] : Fin 2 → Fin S8192x4096x1.rank)
  bcast_S8192x1_S8192x4096_0_1 : S8192x1.BroadcastsInDim S8192x4096 (![0, 1] : Fin 2 → Fin S8192x4096.rank)
  shapeCasts_S2x256x4096_S512x4096 : S2x256x4096.ShapeCasts S512x4096
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  shapeCasts_S512x8192_S2x256x8192 : S512x8192.ShapeCasts S2x256x8192
  gather_S65536_S8192x4096x1_S8192x4096_n_0_n_n_0_2_1_wf : GatherDims.WF S65536 S8192x4096x1 S8192x4096 [] [0] [] [0] [] 2 ![1]
  dot_S512x2048_S1024x2048_S512x1024_1_1_0_0_n_n_wf : DotDims.WF S512x2048 S1024x2048 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S512x4096.size a
  hwx0_0 : ∀ i : grid0.Coords, EltTy.bits .bf16 = 32 ∨ (Rect.block (s := S512x4096) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x4096.size a
  hwx0_1 : ∀ i : grid0.Coords, EltTy.bits .bf16 = 32 ∨ (Rect.block (s := S8192x4096) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x8192.size a
  hwx0_2 : ∀ i : grid0.Coords, EltTy.bits .f32 = 32 ∨ (Rect.block (s := S512x8192) S512x1024.size (cc0_transform_2 i) (hinb0_2 i)).WholeWords (EltTy.packing .f32)

variable [Facts₀]

def gather_S65536_S8192x4096x1_S8192x4096_n_0_n_n_0_2_1 : GatherDims S65536 S8192x4096x1 S8192x4096 where
  offsetDims := []
  collapsedSliceDims := [0]
  operandBatchingDims := []
  startIndicesBatchingDims := []
  startIndexMap := [0]
  indexVectorDim := 2
  sliceSizes := ![1]
  wf := gather_S65536_S8192x4096x1_S8192x4096_n_0_n_n_0_2_1_wf
def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf

abbrev win0_0 : Pipeline.Window sig grid0 :=
  Pipeline.Window.ofSpec (Memref.whole main_v13) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2x256x4096 : Shape := ⟨3, ![2, 256, 4096]⟩
abbrev S8192x4096 : Shape := ⟨2, ![8192, 4096]⟩
abbrev S8192x1 : Shape := ⟨2, ![8192, 1]⟩
abbrev S65536 : Shape := ⟨1, ![65536]⟩
abbrev S_ : Shape := ⟨0, ![]⟩
abbrev S8192x4096x1 : Shape := ⟨3, ![8192, 4096, 1]⟩
abbrev S2x256x8192 : Shape := ⟨3, ![2, 256, 8192]⟩

abbrev nBuf : Space → Nat
  | .hbm => 21
  | .vmem => 0
  | .smem => 0
  | _ => 0

abbrev bufTy : (tb : Table) → Fin (tcTables nBuf tb) → BufTy
  | .hbm, ⟨0, _⟩ => ⟨S2x256x4096, .f32⟩
  | .hbm, ⟨1, _⟩ => ⟨S8192x4096, .i32⟩
  | .hbm, ⟨2, _⟩ => ⟨S8192x4096, .i32⟩
  | .hbm, ⟨3, _⟩ => ⟨S8192x1, .f32⟩
  | .hbm, ⟨4, _⟩ => ⟨S65536, .f32⟩
  | .hbm, ⟨5, _⟩ => ⟨S_, .i32⟩
  | .hbm, ⟨6, _⟩ => ⟨S8192x4096, .i32⟩
  | .hbm, ⟨7, _⟩ => ⟨S8192x4096, .i32⟩
  | .hbm, ⟨8, _⟩ => ⟨S8192x4096, .i32⟩
  | .hbm, ⟨9, _⟩ => ⟨S_, .i32⟩
  | .hbm, ⟨10, _⟩ => ⟨S8192x4096, .i32⟩
  | .hbm, ⟨11, _⟩ => ⟨S8192x4096, .i1⟩
  | .hbm, ⟨12, _⟩ => ⟨S_, .i32⟩
  | .hbm, ⟨13, _⟩ => ⟨S8192x4096, .i32⟩
  | .hbm, ⟨14, _⟩ => ⟨S8192x4096, .i32⟩
  | .hbm, ⟨15, _⟩ => ⟨S8192x4096, .i32⟩
  | .hbm, ⟨16, _⟩ => ⟨S8192x4096x1, .i32⟩
  | .hbm, ⟨17, _⟩ => ⟨S8192x4096, .f32⟩
  | .hbm, ⟨18, _⟩ => ⟨S8192x4096, .f32⟩
  | .hbm, ⟨19, _⟩ => ⟨S8192x4096, .f32⟩
  | .hbm, ⟨20, _⟩ => ⟨S2x256x8192, .f32⟩
  | _, _ => ⟨S2x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  bcast_S8192x4096_S8192x4096x1_0_1 : S8192x4096.BroadcastsInDim S8192x4096x1 (![0, 1] : Fin 2 → Fin S8192x4096x1.rank)
  bcast_S8192x1_S8192x4096_0_1 : S8192x1.BroadcastsInDim S8192x4096 (![0, 1] : Fin 2 → Fin S8192x4096.rank)
  gather_S65536_S8192x4096x1_S8192x4096_n_0_n_n_0_2_1_wf : GatherDims.WF S65536 S8192x4096x1 S8192x4096 [] [0] [] [0] [] 2 ![1]
  dot_S2x256x4096_S8192x4096_S2x256x8192_2_1_01_0_n_n_wf : DotDims.WF S2x256x4096 S8192x4096 S2x256x8192 [2] [1] [0, 1] [0] [] []

variable [Facts₀]

def gather_S65536_S8192x4096x1_S8192x4096_n_0_n_n_0_2_1 : GatherDims S65536 S8192x4096x1 S8192x4096 where
  offsetDims := []
  collapsedSliceDims := [0]
  operandBatchingDims := []
  startIndicesBatchingDims := []
  startIndexMap := [0]
  indexVectorDim := 2
  sliceSizes := ![1]
  wf := gather_S65536_S8192x4096x1_S8192x4096_n_0_n_n_0_2_1_wf
def dot_S2x256x4096_S8192x4096_S2x256x8192_2_1_01_0_n_n : DotDims S2x256x4096 S8192x4096 S2x256x8192 where
  lhsContracting := [2]
  rhsContracting := [1]
  lhsNonContracting := [0, 1]
  rhsNonContracting := [0]
  lhsBatch := []
  rhsBatch := []
  wf := dot_S2x256x4096_S8192x4096_S2x256x8192_2_1_01_0_n_n_wf

class Facts : Prop extends Facts₀ where

variable [Facts]
-- ==== Proof.Accumulate.lean ====
/-
  What the matmul body leaves at each grid point, as values.

  The grid is (1, 8, 2): sixteen points, point t = 2·j + kk with j the block of 1024 output features and kk the half of
  the 4096 input features. The body keeps a [512, 1024] accumulator between points:

    at an even point (kk = 0) it resets the accumulator to zero and adds the product of the point's two blocks:
        acc := 0 + xblock · wblockᵀ
    at an odd point (kk = 1) it adds the second half's product and stores the accumulator as the output block:
        acc := acc + xblock · wblockᵀ ;  out := acc

  So the output block stored at the odd point t is two applications of the same update, step, to the zero block: the
  update at t over the update at t - 1 over zero. No induction over the grid is needed: an even point forgets what
  came before it.
-/
import proofs.«137994_j50663434223826_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

theorem zero_offsets : (![0, 0] : Fin 2 → Nat) = fun _ => 0 := funext fun a => by fin_cases a <;> rfl

/-- The accumulator's reset value: the zero block. -/
abbrev zeroBlock : FVec F S512x1024 .f32 := k0_pay1 (F := F)

/-- One accumulation: the accumulator plus the product of an activation block [512, 2048] with the transpose of a
    weight block [1024, 2048]. -/
abbrev step (x : Vec F S512x2048 .bf16) (w : Vec F S1024x2048 .bf16) (acc : Vec F S512x1024 .f32) : FVec F S512x1024 .f32 :=
  k0_pay2 x w acc

/-- An even point leaves the accumulator at one step over zero: the reset's store is read back by the update. -/
theorem acc_even (c : Dev nD) (i : grid0.Coords) (arg3 : Memref sig .tc .vmem S512x2048 .bf16) (harg3 : arg3.IsWhole) (arg4 : Memref sig .tc .vmem S1024x2048 .bf16) (harg4 : arg4.IsWhole) (arg5 : Memref sig .tc .vmem S512x1024 .f32) (harg5 : arg5.IsWhole) (arg6 : Memref sig .tc .vmem S512x1024 .f32) (harg6 : arg6.IsWhole) (hc0 : cond0_0 i) (hc1 : ¬cond0_1 i)
    (x0 : Vec F S512x2048 .bf16) (x1 : Vec F S1024x2048 .bf16) :
    sout0_A_0 c i arg3 harg3 arg4 harg4 arg5 harg5 arg6 harg6 hc0 hc1 x0 x1 = step x0 x1 (zeroBlock (F := F)) := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S512x1024) zero_offsets]
  simp only [View.readAt_eq_ld, harg3.read_unread, harg4.read_unread, View.ld_unit_zero (S := S512x2048) zero_offsets,
    View.ld_unit_zero (S := S1024x2048) zero_offsets, View.readCov_unit_zero (S := S512x1024) _ zero_offsets]

/-- An odd point leaves the accumulator at one step over what it found there. -/
theorem acc_odd (c : Dev nD) (i : grid0.Coords) (arg3 : Memref sig .tc .vmem S512x2048 .bf16) (harg3 : arg3.IsWhole) (arg4 : Memref sig .tc .vmem S1024x2048 .bf16) (harg4 : arg4.IsWhole) (arg5 : Memref sig .tc .vmem S512x1024 .f32) (harg5 : arg5.IsWhole) (arg6 : Memref sig .tc .vmem S512x1024 .f32) (harg6 : arg6.IsWhole) (hc0 : ¬cond0_0 i) (hc1 : cond0_1 i)
    (x0 : Vec F S512x2048 .bf16) (x1 : Vec F S1024x2048 .bf16) (xs0 : Vec F S512x1024 .f32) :
    sout0_B_0 c i arg3 harg3 arg4 harg4 arg5 harg5 arg6 harg6 hc0 hc1 x0 x1 xs0 = step x0 x1 xs0 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero zero_offsets]
  simp only [View.readAt_eq_ld, harg3.read_unread, harg4.read_unread, harg6.read_unread,
    View.ld_unit_zero (S := S512x2048) zero_offsets, View.ld_unit_zero (S := S1024x2048) zero_offsets,
    View.ld_unit_zero (S := S512x1024) zero_offsets]

/-- And stores that same accumulator as the output block. -/
theorem out_odd (c : Dev nD) (i : grid0.Coords) (arg3 : Memref sig .tc .vmem S512x2048 .bf16) (harg3 : arg3.IsWhole) (arg4 : Memref sig .tc .vmem S1024x2048 .bf16) (harg4 : arg4.IsWhole) (arg5 : Memref sig .tc .vmem S512x1024 .f32) (harg5 : arg5.IsWhole) (arg6 : Memref sig .tc .vmem S512x1024 .f32) (harg6 : arg6.IsWhole) (hc0 : ¬cond0_0 i) (hc1 : cond0_1 i)
    (x0 : Vec F S512x2048 .bf16) (x1 : Vec F S1024x2048 .bf16) (xs0 : Vec F S512x1024 .f32) :
    out0_B_2 c i arg3 harg3 arg4 harg4 arg5 harg5 arg6 harg6 hc0 hc1 x0 x1 xs0 = step x0 x1 xs0 := by
  unfold out0_B_2
  rw [View.read_writes_eq_canon _ _ _ (cover0_B_2 c i arg3 harg3 arg4 harg4 arg5 harg5 arg6 harg6 hc0 hc1 x0 x1 xs0)]
  unfold kernelRun0_B
  dsimp only
  sl_unfold_words
  rw [View.canon_unit_zero zero_offsets]
  simp only [View.readAt_eq_ld, harg3.read_unread, harg4.read_unread, harg6.read_unread,
    View.ld_unit_zero (S := S512x2048) zero_offsets, View.ld_unit_zero (S := S1024x2048) zero_offsets,
    View.ld_unit_zero (S := S512x1024) zero_offsets, View.readCov_unit_zero (S := S512x1024) _ zero_offsets]

variable (m : (ℓ : Loc nD τ sig) → Buf (Elt F) ℓ)

/-- The activation block [512, 2048] and the weight block [1024, 2048] the pipeline stages at point t. -/
abbrev xblk (c : Dev nD) (t : Fin cfg0.N) : Vec F S512x2048 .bf16 := iblk m c 0 t
abbrev wblk (c : Dev nD) (t : Fin cfg0.N) : Vec F S1024x2048 .bf16 := iblk m c 1 t

/-- The point before t. -/
abbrev prev (t : Fin cfg0.N) : Fin cfg0.N := ⟨t.val - 1, Nat.lt_of_le_of_lt (Nat.sub_le _ _) t.isLt⟩

/-- The output block an odd point t stores: the step at t over the step at t - 1 over zero. -/
theorem out_at_odd (c : Dev nD) (t : Fin cfg0.N) (h1 : t.val % 2 = 1) :
    (outsAt0 m c t.val t.isLt).1
      = step (xblk m c t) (wblk m c t) (step (xblk m c (prev t)) (wblk m c (prev t)) (zeroBlock (F := F))) := by
  have h0 : ¬t.val % 2 = 0 := by omega
  have hp0 : (prev t).val % 2 = 0 := by dsimp only [prev]; omega
  have hp1 : ¬(prev t).val % 2 = 1 := by dsimp only [prev]; omega
  rw [outsAt0_B m c t h0 h1]
  dsimp only
  refine (out_odd (F := F) c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2).trans ?_
  refine congrArg (step (xblk m c t) (wblk m c t)) ?_
  have e := outsAt0_A m c (prev t) hp0 hp1
  dsimp only [prev] at e
  rw [e]
  dsimp only
  exact acc_even (F := F) c (grid0.coords (prev t)) (ms0_0 (prev t)) (hs0_0 (prev t)) (ms0_1 (prev t)) (hs0_1 (prev t))
    (ms0_2 (prev t)) (hs0_2 (prev t)) scM0_0 (Memref.isWhole_whole _) ((hcond0_0 (prev t)).mpr hp0)
    (fun h => hp1 ((hcond0_1 (prev t)).mp h)) (iblk m c 0 (prev t)) (iblk m c 1 (prev t))

end Cert.KernelIdeal.Acc

end
-- ==== Proof.StepAt.lean ====
/-
  One accumulation step read at an index, over the extended reals.

  For an activation block x : [512, 2048], a weight block w : [1024, 2048] and an accumulator acc : [512, 1024],
      step x w acc (p, q) = acc (p, q) + Σ_{k < 2048} x (p, k) · w (q, k) :
  the matrix unit contracts the last axis of both blocks into a zero accumulator (so its own contribution is the plain
  sum of products), and the body adds that to the accumulator it loaded. The identity shape casts around it vanish.
-/
import proofs.«137994_j50663434223826_1_alg».proof.Proof.Accumulate
import Idealize.ShloMosaic.PureOps.Ideal.Laws
import Idealize.ShloMosaic.Lib.ValueIdx

noncomputable section

open Idealize.ShloMosaic Idealize.ShloMosaic.TcCoe Idealize.SL.Sem

namespace Cert.KernelIdeal.Acc

open Cert.KernelIdeal Cert.KernelIdeal.Gen ValueIdx

/-- The product's left operand is read at the result's row and the contraction position; -/
theorem lhs_row (i : S512x1024.Idx) (q : dot_S512x2048_S1024x2048_S512x1024_1_1_0_0_n_n.contr.Idx) :
    (dot_S512x2048_S1024x2048_S512x1024_1_1_0_0_n_n.lhsIdx i q 0).val = (i 0).val := by
  unfold DotDims.lhsIdx
  rw [dif_neg (show ¬(0 : Fin S512x2048.rank) ∈ dot_S512x2048_S1024x2048_S512x1024_1_1_0_0_n_n.lhsBatch by decide), dif_pos (show (0 : Fin S512x2048.rank) ∈ dot_S512x2048_S1024x2048_S512x1024_1_1_0_0_n_n.lhsNonContracting by decide)]
  rfl
theorem lhs_contr (i : S512x1024.Idx) (q : dot_S512x2048_S1024x2048_S512x1024_1_1_0_0_n_n.contr.Idx) :
    (dot_S512x2048_S1024x2048_S512x1024_1_1_0_0_n_n.lhsIdx i q 1).val = (q ⟨0, by decide⟩).val :=
  dot_S512x2048_S1024x2048_S512x1024_1_1_0_0_n_n.lhsIdx_val_of_single rfl i q
/-- its right operand at the result's column (a row of the weight block) and the contraction position. -/
theorem rhs_row (i : S512x1024.Idx) (q : dot_S512x2048_S1024x2048_S512x1024_1_1_0_0_n_n.contr.Idx) :
    (dot_S512x2048_S1024x2048_S512x1024_1_1_0_0_n_n.rhsIdx i q 0).val = (i 1).val := by
  unfold DotDims.rhsIdx
  rw [dif_neg (show ¬(0 : Fin S1024x2048.rank) ∈ dot_S512x2048_S1024x2048_S512x1024_1_1_0_0_n_n.rhsBatch by decide), dif_pos (show (0 : Fin S1024x2048.rank) ∈ dot_S512x2048_S1024x2048_S512x1024_1_1_0_0_n_n.rhsNonContracting by decide)]
  rfl
theorem rhs_contr (i : S512x1024.Idx) (q : dot_S512x2048_S1024x2048_S512x1024_1_1_0_0_n_n.contr.Idx) :
    (dot_S512x2048_S1024x2048_S512x1024_1_1_0_0_n_n.rhsIdx i q 1).val = (q ⟨0, by decide⟩).val :=
  dot_S512x2048_S1024x2048_S512x1024_1_1_0_0_n_n.rhsIdx_val_of_single rfl i q

/-- The matrix unit's product into a zero accumulator, at (p, q): the sum over the 2048 contracted positions. -/
theorem product_apply (x : FVec Ideal S512x2048 .bf16) (w : FVec Ideal S1024x2048 .bf16) (p : Fin 512) (q : Fin 1024) :
    FloatOps.matmul dot_S512x2048_S1024x2048_S512x1024_1_1_0_0_n_n none x w (constant S512x1024 .f32 0x00000000#32) (ix2 p q)
      = ∑ k : Fin 2048, x (ix2 p k) * w (ix2 q k) := by
  rw [Ideal.matmul_constant_zero_apply, ← Equiv.sum_comp (ValueIdx.contrEquiv1 dot_S512x2048_S1024x2048_S512x1024_1_1_0_0_n_n 2048 rfl rfl).symm]
  refine Finset.sum_congr rfl fun k _ => ?_
  have hk := ValueIdx.contrEquiv1_symm_val dot_S512x2048_S1024x2048_S512x1024_1_1_0_0_n_n 2048 rfl rfl k
  have el : dot_S512x2048_S1024x2048_S512x1024_1_1_0_0_n_n.lhsIdx (ix2 p q) ((ValueIdx.contrEquiv1 dot_S512x2048_S1024x2048_S512x1024_1_1_0_0_n_n 2048 rfl rfl).symm k) = ix2 p k := funext fun a => Fin.ext (by
    match a with
    | ⟨0, _⟩ => exact lhs_row _ _
    | ⟨1, _⟩ => exact (lhs_contr _ _).trans hk)
  have er : dot_S512x2048_S1024x2048_S512x1024_1_1_0_0_n_n.rhsIdx (ix2 p q) ((ValueIdx.contrEquiv1 dot_S512x2048_S1024x2048_S512x1024_1_1_0_0_n_n 2048 rfl rfl).symm k) = ix2 q k := funext fun a => Fin.ext (by
    match a with
    | ⟨0, _⟩ => exact rhs_row _ _
    | ⟨1, _⟩ => exact (rhs_contr _ _).trans hk)
  rw [el, er]

/-- One step at (p, q): the accumulator there plus the 2048 products of row p of x with row q of w. -/
theorem step_apply (x : FVec Ideal S512x2048 .bf16) (w : FVec Ideal S1024x2048 .bf16) (acc : FVec Ideal S512x1024 .f32)
    (p : Fin 512) (q : Fin 1024) :
    step (F := Ideal) x w acc (ix2 p q) = acc (ix2 p q) + ∑ k : Fin 2048, x (ix2 p k) * w (ix2 q k) := by
  unfold step k0_pay2
  simp only [shapeCast_self]
  exact congrArg (acc (ix2 p q) + ·) (product_apply x w p q)

/-- The zero block is zero everywhere. -/
theorem zeroBlock_apply (j : S512x1024.Idx) : zeroBlock (F := Ideal) j = 0 := by
  unfold zeroBlock k0_pay1
  simp only [shapeCast_self]
  exact Ideal.ofBits_zero_f32

end Cert.KernelIdeal.Acc

end
-- ==== Proof.Contraction.lean ====
/-
  The linear layer both programs compute, as ONE function of the activations and the weight matrix, and the law that
  joins the two arrangements of its contraction.

      out[b, s, o] = Σ_{k < 4096} x[b, s, k] · w[o, k]          (F.linear(x, w) = x @ wᵀ)

  The reference contracts all 4096 input features at once. The kernel contracts them in two halves of 2048: the first
  into a zero accumulator, the second added to it. Over a commutative additive monoid the sum over 4096 terms IS the sum
  of its first 2048 terms plus the sum of its last 2048 terms; nothing here needs a finite value.
-/
import Idealize.ShloMosaic.PureOps.Ideal
import Idealize.ShloMosaic.Lib.ValueIdx
import Mathlib.Algebra.BigOperators.Fin

noncomputable section

namespace Cert.Linear

open Idealize.ShloMosaic

/-- Activations x : f32[2, 256, 4096], weights w : f32[8192, 4096], result f32[2, 256, 8192]. -/
abbrev SAct : Shape := ⟨3, ![2, 256, 4096]⟩
abbrev SWt : Shape := ⟨2, ![8192, 4096]⟩
abbrev SRes : Shape := ⟨3, ![2, 256, 8192]⟩

/-- Where result element i = (b, s, o) reads the activations for input feature k: at (b, s, k). -/
abbrev actAt (i : SRes.Idx) (k : Fin 4096) : SAct.Idx := fun a => match a with
  | ⟨0, _⟩ => ⟨(i 0).val, (i 0).isLt⟩
  | ⟨1, _⟩ => ⟨(i 1).val, (i 1).isLt⟩
  | ⟨2, _⟩ => ⟨k.val, k.isLt⟩

/-- Where it reads the weights: row o, column k. -/
abbrev wtAt (i : SRes.Idx) (k : Fin 4096) : SWt.Idx := fun a => match a with
  | ⟨0, _⟩ => ⟨(i 2).val, (i 2).isLt⟩
  | ⟨1, _⟩ => ⟨k.val, k.isLt⟩

/-- The linear layer over the extended reals: out[b, s, o] = Σ_k x[b, s, k] · w[o, k]. -/
def linear (x : SAct.Idx → EReal) (w : SWt.Idx → EReal) : SRes.Idx → EReal :=
  fun i => ∑ k : Fin 4096, x (actAt i k) * w (wtAt i k)

/-- A sum over 4096 terms is the sum of its first half plus the sum of its second half. -/
theorem sum_halves {M : Type*} [AddCommMonoid M] (f : Fin 4096 → M) :
    (∑ k : Fin 2048, f ⟨k.val, by have := k.isLt; omega⟩) + (∑ k : Fin 2048, f ⟨2048 + k.val, by have := k.isLt; omega⟩)
      = ∑ k : Fin 4096, f k :=
  (Fin.sum_univ_add (a := 2048) (b := 2048) f).symm

end Cert.Linear

end
-- ==== Proof.OutputArray.lean ====
/-
  The kernel's result array, as one function of the two arrays the region finds.

  Write X : [512, 4096] for the activations (two batches of 256 rows, flattened) and W : [8192, 4096] for the weight
  matrix, both as the region finds them. Output block j (columns 1024·j … 1024·j + 1023) is stored at the odd point
  t = 2·j + 1 and holds two accumulation steps over zero: the step at t - 1 over the first 2048 input features and the
  step at t over the last 2048. Read at (p, q) that is

      (0 + Σ_{k < 2048} X(p, k) · W(1024·j + q, k)) + Σ_{k < 2048} X(p, 2048 + k) · W(1024·j + q, 2048 + k)
        = Σ_{k < 4096} X(p, k) · W(1024·j + q, k),

  the two halves of one sum. The eight blocks tile the [512, 8192] array, so the array ends at X · Wᵀ.
-/
import proofs.«137994_j50663434223826_1_alg».proof.Proof.StepAt
import proofs.«137994_j50663434223826_1_alg».proof.Proof.Contraction

noncomputable section

open Idealize.ShloMosaic Idealize.ShloMosaic.TcCoe Idealize.SL.Sem
open Idealize.ShloMosaic.Pipeline (Dat)

namespace Cert.KernelIdeal.Out

open Cert.KernelIdeal Cert.KernelIdeal.Gen Cert.KernelIdeal.Acc ValueIdx

/-- X · Wᵀ for X : [512, 4096] and W : [8192, 4096]: entry (p, n) is the sum over the 4096 input features. -/
def product (X : FVec Ideal S512x4096 .bf16) (W : FVec Ideal S8192x4096 .bf16) : S512x8192.Idx → EReal :=
  fun i => ∑ k : Fin 4096, X (ix2 (⟨(i 0).val, (i 0).isLt⟩ : Fin 512) k) * W (ix2 (⟨(i 1).val, (i 1).isLt⟩ : Fin 8192) k)

/-- Two steps over zero, at (p, q): the first pair of blocks' products plus the second pair's. -/
theorem two_steps_apply (x0 x1 : FVec Ideal S512x2048 .bf16) (w0 w1 : FVec Ideal S1024x2048 .bf16) (p : Fin 512) (q : Fin 1024) :
    step (F := Ideal) x1 w1 (step (F := Ideal) x0 w0 (zeroBlock (F := Ideal))) (ix2 p q)
      = (∑ k : Fin 2048, x0 (ix2 p k) * w0 (ix2 q k)) + ∑ k : Fin 2048, x1 (ix2 p k) * w1 (ix2 q k) := by
  rw [step_apply, step_apply, zeroBlock_apply, zero_add]

/-- The two halves of row p of X against row n of W are the whole contraction. -/
theorem halves_join (X : FVec Ideal S512x4096 .bf16) (W : FVec Ideal S8192x4096 .bf16) (p : Fin 512) (n : Fin 8192) :
    (∑ k : Fin 2048, X (ix2 p (⟨k.val, by have := k.isLt; omega⟩ : Fin 4096)) * W (ix2 n (⟨k.val, by have := k.isLt; omega⟩ : Fin 4096)))
      + (∑ k : Fin 2048, X (ix2 p (⟨2048 + k.val, by have := k.isLt; omega⟩ : Fin 4096)) * W (ix2 n (⟨2048 + k.val, by have := k.isLt; omega⟩ : Fin 4096)))
      = ∑ k : Fin 4096, X (ix2 p k) * W (ix2 n k) :=
  Cert.Linear.sum_halves (fun k => X (ix2 p k) * W (ix2 n k))

variable (m : (ℓ : Loc nD τ sig) → Buf (Elt Ideal) ℓ)

/-- The activations and the weight matrix as the region finds them. -/
abbrev xarr (c : Dev nD) : FVec Ideal S512x4096 .bf16 := V m c main_v13
abbrev warr (c : Dev nD) : FVec Ideal S8192x4096 .bf16 := V m c main_v14

/-- The block indices at point t = 2·j + kk, decided over the sixteen points: the activation block is (0, kk), the
    weight block (j, kk), the output block (0, j). -/
theorem idx_facts : ∀ t : Fin cfg0.N, win0_0.index t (0 : Fin 2) = 0 ∧ win0_0.index t (1 : Fin 2) = t.val % 2
    ∧ win0_1.index t (0 : Fin 2) = t.val / 2 ∧ win0_1.index t (1 : Fin 2) = t.val % 2
    ∧ win0_2.index t (0 : Fin 2) = 0 ∧ win0_2.index t (1 : Fin 2) = t.val / 2 :=
  (by decide +kernel : ∀ t : Fin grid0.N, _)

/-- The activation block at point t reads X at the same row and at column 2048·kk + k. -/
theorem xblk_apply (c : Dev nD) (t : Fin cfg0.N) (p : Fin 512) (k : Fin 2048) (col : Fin 4096)
    (hcol : col.val = 2048 * (t.val % 2) + k.val) :
    xblk m c t (ix2 p k) = xarr m c (ix2 p col) := by
  obtain ⟨e0, e1, -⟩ := idx_facts t
  show ((cfg0.win 0).blk t).view.read (Elt Ideal) (V m c (Pipeline.arrRef spec0 0)) (ix2 p k) = _
  rw [View.read_apply]
  show V m c main_v13 (((cfg0.win 0).blk t).view.emb (ix2 p k)) = V m c main_v13 (ix2 p col)
  congr 1
  funext a; apply Fin.ext
  match a with
  | ⟨0, _⟩ => show win0_0.index t (0 : Fin 2) * 512 + 1 * p.val = p.val; omega
  | ⟨1, _⟩ => show win0_0.index t (1 : Fin 2) * 2048 + 1 * k.val = col.val; omega

/-- The weight block at point t reads W at row 1024·j + q and column 2048·kk + k. -/
theorem wblk_apply (c : Dev nD) (t : Fin cfg0.N) (q : Fin 1024) (k : Fin 2048) (row : Fin 8192) (col : Fin 4096)
    (hrow : row.val = 1024 * (t.val / 2) + q.val) (hcol : col.val = 2048 * (t.val % 2) + k.val) :
    wblk m c t (ix2 q k) = warr m c (ix2 row col) := by
  obtain ⟨-, -, e2, e3, -⟩ := idx_facts t
  show ((cfg0.win 1).blk t).view.read (Elt Ideal) (V m c (Pipeline.arrRef spec0 1)) (ix2 q k) = _
  rw [View.read_apply]
  show V m c main_v14 (((cfg0.win 1).blk t).view.emb (ix2 q k)) = V m c main_v14 (ix2 row col)
  congr 1
  funext a; apply Fin.ext
  match a with
  | ⟨0, _⟩ => show win0_1.index t (0 : Fin 2) * 1024 + 1 * q.val = row.val; omega
  | ⟨1, _⟩ => show win0_1.index t (1 : Fin 2) * 2048 + 1 * k.val = col.val; omega

/-- The output block stored at an odd point t, at (p, q): row p of X against row 1024·j + q of W. -/
theorem block_value (c : Dev nD) (t : Fin cfg0.N) (h1 : t.val % 2 = 1) (p : Fin 512) (q : Fin 1024) (n : Fin 8192)
    (hn : n.val = 1024 * (t.val / 2) + q.val) :
    step (F := Ideal) (xblk m c t) (wblk m c t) (step (F := Ideal) (xblk m c (prev t)) (wblk m c (prev t)) (zeroBlock (F := Ideal))) (ix2 p q)
      = ∑ k : Fin 4096, xarr m c (ix2 p k) * warr m c (ix2 n k) := by
  refine (two_steps_apply (xblk m c (prev t)) (xblk m c t) (wblk m c (prev t)) (wblk m c t) p q).trans ?_
  rw [← halves_join (xarr m c) (warr m c) p n]
  refine congrArg₂ (· + ·) (Finset.sum_congr rfl fun k _ => ?_) (Finset.sum_congr rfl fun k _ => ?_)
  · have hk := k.isLt
    rw [xblk_apply m c (prev t) p k ⟨k.val, by omega⟩ (by dsimp only [prev]; omega),
      wblk_apply m c (prev t) q k n ⟨k.val, by omega⟩ (by dsimp only [prev]; omega) (by dsimp only [prev]; omega)]
  · have hk := k.isLt
    rw [xblk_apply m c t p k ⟨2048 + k.val, by omega⟩ (by dsimp only; omega),
      wblk_apply m c t q k n ⟨2048 + k.val, by omega⟩ hn (by dsimp only; omega)]

/-- What an odd point writes back is its block of X · Wᵀ. -/
theorem flushed_eq (c : Dev nD) (t : Fin cfg0.N) (hf : (cfg0.win 2).flush t = true) :
    (dats m 0 c).flushed 2 t = ((cfg0.win 2).blk t).view.read (Elt Ideal) (product (xarr m c) (warr m c)) := by
  have h1 : t.val % 2 = 1 := (flush0_2 t).mp hf
  have hN : t.val < 16 := lt_of_lt_of_eq t.isLt (show cfg0.N = 16 from N_0)
  obtain ⟨-, -, -, -, e4, e5⟩ := idx_facts t
  show (cfg0.win 2).cut (grid0.coords t) ((dats m 0 c).after 2 t) = _
  rw [after0_2, out_at_odd m c t h1]
  funext j
  have hj0 : (j 0).val < 512 := (j 0).isLt
  have hj1 : (j 1).val < 1024 := (j 1).isLt
  rw [View.read_apply]
  show step (F := Ideal) (xblk m c t) (wblk m c t) (step (F := Ideal) (xblk m c (prev t)) (wblk m c (prev t)) (zeroBlock (F := Ideal))) j
      = product (xarr m c) (warr m c) (((cfg0.win 2).blk t).view.emb j)
  have hj : (j : S512x1024.Idx) = ix2 (⟨(j 0).val, hj0⟩ : Fin 512) (⟨(j 1).val, hj1⟩ : Fin 1024) := by
    funext a
    match a with
    | ⟨0, _⟩ => rfl
    | ⟨1, _⟩ => rfl
  have r0 : ((((cfg0.win 2).blk t).view.emb j) 0).val = (j 0).val := by
    show win0_2.index t (0 : Fin 2) * 512 + 1 * (j 0).val = (j 0).val; omega
  have r1 : ((((cfg0.win 2).blk t).view.emb j) 1).val = 1024 * (t.val / 2) + (j 1).val := by
    show win0_2.index t (1 : Fin 2) * 1024 + 1 * (j 1).val = _; omega
  refine (congrArg _ hj).trans ?_
  refine (block_value m c t h1 ⟨(j 0).val, hj0⟩ ⟨(j 1).val, hj1⟩ ⟨1024 * (t.val / 2) + (j 1).val, by omega⟩ rfl).trans ?_
  unfold product
  refine Finset.sum_congr rfl fun k _ => ?_
  exact congrArg₂ (· * ·)
    (congrArg (xarr m c) (congrArg (fun r : Fin 512 => ix2 r k) (Fin.ext r0.symm)))
    (congrArg (warr m c) (congrArg (fun r : Fin 8192 => ix2 r k) (Fin.ext r1.symm)))

/-- An index of the array is in point t's block iff each coordinate is in the block's range on its axis. -/
theorem mem_blk (t : Fin cfg0.N) (i : S512x8192.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v15).slice (win0_2.rect t)).set ↔ _
  rw [View.set_slice_whole, Rect.mem_set_unit]
  exact Iff.rfl

/-- The eight output blocks tile the array: column n lies in block n / 1024, stored at point 2·(n / 1024) + 1. So the
    result array ends at X · Wᵀ. -/
theorem final (c : Dev nD) : (dats m 0 c).arrAt 2 cfg0.N = product (xarr m c) (warr m c) :=
  (dats m 0 c).arrAt_eq_of_cover 2 (product (xarr m c) (warr m c)) (flushed_eq m c) fun i => by
    have hi0 : (i 0).val < 512 := (i 0).isLt
    have hi1 : (i 1).val < 8192 := (i 1).isLt
    have hlt : 2 * ((i 1).val / 1024) + 1 < cfg0.N := by rw [show cfg0.N = 16 from N_0]; omega
    obtain ⟨-, -, -, -, e4, e5⟩ := idx_facts ⟨2 * ((i 1).val / 1024) + 1, hlt⟩
    dsimp only at e5
    refine ⟨⟨2 * ((i 1).val / 1024) + 1, hlt⟩, (flush0_2 _).mpr (by dsimp only; omega), ?_⟩
    rw [mem_blk]
    intro a
    match a with
    | ⟨0, _⟩ =>
      show win0_2.index ⟨2 * ((i 1).val / 1024) + 1, hlt⟩ (0 : Fin 2) * 512 ≤ (i 0).val
        ∧ (i 0).val < win0_2.index ⟨2 * ((i 1).val / 1024) + 1, hlt⟩ (0 : Fin 2) * 512 + 512
      omega
    | ⟨1, _⟩ =>
      show win0_2.index ⟨2 * ((i 1).val / 1024) + 1, hlt⟩ (1 : Fin 2) * 1024 ≤ (i 1).val
        ∧ (i 1).val < win0_2.index ⟨2 * ((i 1).val / 1024) + 1, hlt⟩ (1 : Fin 2) * 1024 + 1024
      omega

end Cert.KernelIdeal.Out

end
-- ==== Proof.KernelResult.lean ====
/-
  The idealized kernel's whole run, read as the linear layer.

  Before the region the host builds the weight matrix from the two-level lookup table,
      W[o, i] = lut[wrap(base[o, i] · 256 + fine[o, i])] · scale[o, 0]
  (wrap adds 65536 to a negative combined index, as jnp's indexing does), and flattens the activations' two leading axes:
  X[256·b + s, k] = x[b, s, k]. Both are then converted to bf16, which over the extended reals changes nothing. The region
  leaves X · Wᵀ in a [512, 8192] array, and the last host operation unflattens its rows: the result at (b, s, o) is
  X · Wᵀ at (256·b + s, o), that is Σ_k x[b, s, k] · W[o, k]: the linear layer of x and W.
-/
import proofs.«137994_j50663434223826_1_alg».proof.Proof.OutputArray
import Idealize.ShloMosaic.Lib.StableHlo.Run

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Out ValueIdx Cert.Linear

/-- The weight matrix the host builds: the lookup table gathered at the wrapped combined index base · 256 + fine,
    times the per-row scale. -/
def weights (base fine : IVec S8192x4096 32) (scale : FVec Ideal S8192x1 .f32) (lut : FVec Ideal S65536 .f32) :
    FVec Ideal S8192x4096 .f32 :=
  mulf (F := Ideal) (Host.gather gather_S65536_S8192x4096x1_S8192x4096_n_0_n_n_0_2_1 (lut) (broadcastInDim S8192x4096x1 ![0, 1] bcast_S8192x4096_S8192x4096x1_0_1 (select (cmpi .slt (addi (muli (base) (broadcastInDim S8192x4096 ![] bcast_S_S8192x4096 (constantI S_ 32 256#32))) (fine)) (broadcastInDim S8192x4096 ![] bcast_S_S8192x4096 (constantI S_ 32 0#32))) (addi (addi (muli (base) (broadcastInDim S8192x4096 ![] bcast_S_S8192x4096 (constantI S_ 32 256#32))) (fine)) (broadcastInDim S8192x4096 ![] bcast_S_S8192x4096 (constantI S_ 32 65536#32))) (addi (muli (base) (broadcastInDim S8192x4096 ![] bcast_S_S8192x4096 (constantI S_ 32 256#32))) (fine))))) (broadcastInDim S8192x4096 ![0, 1] bcast_S8192x1_S8192x4096_0_1 (scale))

variable (m : (ℓ : Loc nD τ sig) → Buf (Elt Ideal) ℓ) (ρ : Dev nD → PrngReg)

/-- The region finds the activations flattened to [512, 4096] (the bf16 conversion is the identity here). -/
theorem xarr_eq (c : Dev nD) :
    xarr m c = shapeCast S512x4096 (m ((c.tc : Thread nD τ).loc main_arg0)) shapeCasts_S2x256x4096_S512x4096 := by
  show StableHlo.after hostOps0 (fun b => m (c, b)) (Proc.devRef .tc main_v13) = _
  after_results
  rfl

/-- The region finds the weight matrix the host built (again through an identity conversion). -/
theorem warr_eq (c : Dev nD) :
    warr m c = weights (m ((c.tc : Thread nD τ).loc main_arg1)) (m ((c.tc : Thread nD τ).loc main_arg2)) (m ((c.tc : Thread nD τ).loc main_arg3)) (m ((c.tc : Thread nD τ).loc main_arg4)) := by
  show StableHlo.after hostOps0 (fun b => m (c, b)) (Proc.devRef .tc main_v14) = _
  after_results
  rfl

/-- Row 256·b + s of the flattened activations is row (b, s) of x. -/
theorem xarr_apply (c : Dev nD) (i : SRes.Idx) (k : Fin 4096) (r : Fin 512) (hr : r.val = 256 * (i 0).val + (i 1).val) :
    xarr m c (ix2 r k) = (m ((c.tc : Thread nD τ).loc main_arg0)) (actAt i k) := by
  rw [xarr_eq]
  refine shapeCast_apply _ _ _ _ ?_
  show (S2x256x4096.rowMajor (actAt i k)).val = (S512x4096.rowMajor (ix2 r k)).val
  rw [Shape.rowMajor_val_three, Shape.rowMajor_val_two]
  show ((i 0).val * 256 + (i 1).val) * 4096 + k.val = r.val * 4096 + k.val
  omega

/-- The result buffer after the last host operation: the linear layer of x and the host's weight matrix. -/
theorem result_eq (c : Dev nD) :
    Pipeline.afterTail₀ cfgs (dats m) 0 (V0 m) [hostOps1] c main_v16
      = linear (m ((c.tc : Thread nD τ).loc main_arg0)) (weights (m ((c.tc : Thread nD τ).loc main_arg1)) (m ((c.tc : Thread nD τ).loc main_arg2)) (m ((c.tc : Thread nD τ).loc main_arg3)) (m ((c.tc : Thread nD τ).loc main_arg4))) := by
  unfold Pipeline.afterTail₀
  show StableHlo.after hostOps1 _ (Proc.devRef .tc main_v16) = _
  after_results
  show shapeCast S2x256x8192 (Pipeline.withArrays (cfgs 0).spec c (V0 m c) (fun w => (dats m 0 c).arrAt w (cfgs 0).N)
    (Proc.devRef .tc main_v15)) shapeCasts_S512x8192_S2x256x8192 = _
  rw [show Pipeline.withArrays (cfgs 0).spec c (V0 m c) (fun w => (dats m 0 c).arrAt w (cfgs 0).N) (Proc.devRef .tc main_v15)
      = product (xarr m c) (warr m c) from (Pipeline.withArrays_arr spec0 launch0.win.arr_inj c _ _ 2).trans (final m c)]
  funext i
  have h0 : (i 0).val < 2 := (i 0).isLt
  have h1 : (i 1).val < 256 := (i 1).isLt
  have h2 : (i 2).val < 8192 := (i 2).isLt
  rw [shapeCast_apply (product (xarr m c) (warr m c)) shapeCasts_S512x8192_S2x256x8192 i
    (ix2 (⟨256 * (i 0).val + (i 1).val, by omega⟩ : Fin 512) (⟨(i 2).val, h2⟩ : Fin 8192)) (by
      rw [Shape.rowMajor_val_three, Shape.rowMajor_val_two]
      show (256 * (i 0).val + (i 1).val) * 8192 + (i 2).val = ((i 0).val * 256 + (i 1).val) * 8192 + (i 2).val
      omega)]
  show (product (xarr m c) (warr m c) (ix2 (⟨256 * (i 0).val + (i 1).val, by omega⟩ : Fin 512) (⟨(i 2).val, h2⟩ : Fin 8192)) : EReal)
    = linear (m ((c.tc : Thread nD τ).loc main_arg0)) (weights (m ((c.tc : Thread nD τ).loc main_arg1)) (m ((c.tc : Thread nD τ).loc main_arg2)) (m ((c.tc : Thread nD τ).loc main_arg3)) (m ((c.tc : Thread nD τ).loc main_arg4))) i
  unfold product linear
  refine Finset.sum_congr rfl fun k _ => ?_
  refine congrArg₂ (· * ·) (xarr_apply m c i k _ rfl) ?_
  rw [warr_eq]
  exact congrArg _ (funext fun a => by
    match a with
    | ⟨0, _⟩ => rfl
    | ⟨1, _⟩ => rfl)

/-- The run: the result buffer ends at the linear layer, the five arguments unchanged. -/
theorem run : θ_run defs (onTc (τ := τ) (main (F := Ideal))) ⟨m, fun _ => 0, ρ⟩ fun r => ∀ c : Dev nD,
      r.2.mem ((c.tc : Thread nD τ).loc main_v16)
        = linear (m ((c.tc : Thread nD τ).loc main_arg0)) (weights (m ((c.tc : Thread nD τ).loc main_arg1)) (m ((c.tc : Thread nD τ).loc main_arg2)) (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v16 (Pipeline.mem_restRefs_of main_v16 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Result

end
-- ==== Proof.Reference.lean ====
/-
  The reference's result, read as the linear layer.

  The reference builds the same weight matrix W from the lookup table and the per-row scale, and contracts the 4096
  input features of x against it in one dot_general. Over the extended reals its element (b, s, o) is
  Σ_k x[b, s, k] · W[o, k]: the linear layer of x and W, with nothing left to rearrange.
-/
import proofs.«137994_j50663434223826_1_alg».proof.Proof.Gen.ReferenceIdeal.Run
import proofs.«137994_j50663434223826_1_alg».proof.Proof.Gen.ReferenceIdeal.Read
import proofs.«137994_j50663434223826_1_alg».proof.Proof.Contraction

noncomputable section

open Idealize.ShloMosaic Idealize.ShloMosaic.TcCoe Idealize.SL.Sem

namespace Cert.ReferenceIdeal.RefValue

open Cert.ReferenceIdeal Cert.ReferenceIdeal.Gen Cert.ReferenceIdeal.Read Cert.Linear

/-- The dot_general of x with the reference's weight matrix is the linear layer of the two. -/
theorem result_eq (x0 : (⟨S2x256x4096, .f32⟩ : BufTy).Contents (Elt Ideal)) (x1 x2 : (⟨S8192x4096, .i32⟩ : BufTy).Contents (Elt Ideal))
    (x3 : (⟨S8192x1, .f32⟩ : BufTy).Contents (Elt Ideal)) (x4 : (⟨S65536, .f32⟩ : BufTy).Contents (Elt Ideal)) :
    val_main_v12 (F := Ideal) x0 x1 x2 x3 x4 = linear x0 (val_main_v11 (F := Ideal) x1 x2 x3 x4) := by
  funext i
  rw [val_main_v12_apply]
  rfl

end Cert.ReferenceIdeal.RefValue

end
-- ==== Proof.lean ====
/-
  A linear layer with a two-level lookup-table weight matrix: the tiled kernel against jnp's einsum.

  Both programs first build, by the same host operations, the weight matrix
      W[o, i] = lut[wrap(base[o, i] · 256 + fine[o, i])] · scale[o, 0]        (o < 8192, i < 4096)
  and then compute out[b, s, o] = Σ_{i < 4096} x[b, s, i] · W[o, i].

  The reference does it in one contraction. The kernel flattens x to [512, 4096], tiles the 8192 output features in
  eight blocks of 1024 and the 4096 input features in two halves of 2048, and for each output block accumulates the two
  halves' products in a scratch accumulator that starts at zero; it stores the accumulator after the second half and the
  host unflattens the rows. Over the extended reals the conversions to bf16 change nothing, the matrix unit's product
  into a zero accumulator is the plain sum of products, and
      (0 + Σ_{k < 2048} a_k) + Σ_{k < 2048} a_{2048 + k} = Σ_{k < 4096} a_k
  in any commutative additive monoid. So both results are the same function, linear x W, of the arguments; the
  precondition's finiteness is never used. The ideal pass rewrote nothing, so preserves is trivial.

  The modules: Contraction (the linear layer and the split of its sum), Accumulate (what the body leaves at each grid
  point), StepAt (one accumulation read at an index), OutputArray (the region's result array is X · Wᵀ), KernelResult
  (the whole idealized kernel run ends at linear x W), Reference (so does the reference's).
-/
import proofs.«137994_j50663434223826_1_alg».proof.Defs
import proofs.«137994_j50663434223826_1_alg».proof.Proof.Gen.Kernel
import proofs.«137994_j50663434223826_1_alg».proof.Proof.Gen.Kernel.Skeleton
import proofs.«137994_j50663434223826_1_alg».proof.Proof.Gen.Kernel.Launch
import proofs.«137994_j50663434223826_1_alg».proof.Proof.Gen.Kernel.Points
import proofs.«137994_j50663434223826_1_alg».proof.Proof.Gen.Kernel.Frame
import proofs.«137994_j50663434223826_1_alg».proof.Proof.Gen.KernelIdeal
import proofs.«137994_j50663434223826_1_alg».proof.Proof.Gen.KernelIdeal.Skeleton
import proofs.«137994_j50663434223826_1_alg».proof.Proof.Gen.KernelIdeal.Launch
import proofs.«137994_j50663434223826_1_alg».proof.Proof.Gen.KernelIdeal.Points
import proofs.«137994_j50663434223826_1_alg».proof.Proof.Gen.KernelIdeal.Frame
import proofs.«137994_j50663434223826_1_alg».proof.Proof.Gen.ReferenceIdeal
import proofs.«137994_j50663434223826_1_alg».proof.Proof.Gen.Pre_finite_inputs
import proofs.«137994_j50663434223826_1_alg».proof.Proof.KernelResult
import proofs.«137994_j50663434223826_1_alg».proof.Proof.Reference
import Idealize.ShloMosaic.Adequacy
import Idealize.ShloMosaic.Init

noncomputable section

namespace Cert.Proof

open Idealize.ShloMosaic Idealize.SL.Sem Cert.Linear

/-- The reference's weight matrix and the kernel's are one term of the lookup table, the two index arrays and the
    scale: the same host operations with the same literals. -/
theorem weights_agree (x1 x2 : (⟨Cert.ReferenceIdeal.S8192x4096, .i32⟩ : BufTy).Contents (Elt Ideal))
    (x3 : (⟨Cert.ReferenceIdeal.S8192x1, .f32⟩ : BufTy).Contents (Elt Ideal)) (x4 : (⟨Cert.ReferenceIdeal.S65536, .f32⟩ : BufTy).Contents (Elt Ideal)) :
    Cert.ReferenceIdeal.Read.val_main_v11 (F := Ideal) x1 x2 x3 x4 = Cert.KernelIdeal.Result.weights x1 x2 x3 x4 := rfl

theorem frame_kernel : Cert.frame_Kernel := fun m ρ _ => Cert.Kernel.Gen.frame m ρ
theorem frame_kernelIdeal : Cert.frame_KernelIdeal := fun m ρ _ => Cert.KernelIdeal.Gen.frame m ρ
/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with their result buffer at linear x W of arguments that agree. -/
theorem algebraic : Cert.algebraic_KernelIdeal_ReferenceIdeal := by
  intro m ρ m' ρ' _ hagree
  refine ⟨fun c => linear (m ((c.tc : Thread Cert.KernelIdeal.nD Cert.KernelIdeal.τ).loc Cert.KernelIdeal.main_arg0)) (Cert.KernelIdeal.Result.weights (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))),
    Cert.KernelIdeal.Result.run m ρ, ?_⟩
  refine (θ_run Cert.ReferenceIdeal.defs _ _).mono (fun _ h c => ⟨(h c).1.trans ?_, (h c).2⟩) (Cert.ReferenceIdeal.Value.run (F := Ideal) m' ρ')
  rw [Cert.ReferenceIdeal.Read.val_main_v12_eq, Cert.ReferenceIdeal.RefValue.result_eq, weights_agree,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
